-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1x10000x128 .f32) (main_arg1 : FVec F S10000x10000 .f32) (main_arg2 : FVec F S128x128 .f32) (main_arg3 : FVec F S128 .f32) (main_arg4 : FVec F S1 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S10000x128 : Shape := ⟨2, ![10000, 128]⟩
abbrev S1x128 : Shape := ⟨2, ![1, 128]⟩
abbrev S1x1 : Shape := ⟨2, ![1, 1]⟩
abbrev S600x10000 : Shape := ⟨2, ![600, 10000]⟩
abbrev S600x128 : Shape := ⟨2, ![600, 128]⟩

abbrev nBuf : Space → Nat
  | .hbm => 11
  | .vmem => 9
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S10000x128, .f32⟩
  | .hbm, ⟨6, _⟩ => ⟨S128x128, .f32⟩
  | .hbm, ⟨7, _⟩ => ⟨S1x128, .f32⟩
  | .hbm, ⟨8, _⟩ => ⟨S1x1, .f32⟩
  | .hbm, ⟨9, _⟩ => ⟨S10000x128, .f32⟩
  | .hbm, ⟨10, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S1x1, .f32⟩
  | .local _ .vmem, ⟨4, _⟩ => ⟨S600x10000, .f32⟩
  | .local _ .vmem, ⟨5, _⟩ => ⟨S600x10000, .f32⟩
  | .local _ .vmem, ⟨6, _⟩ => ⟨S600x128, .f32⟩
  | .local _ .vmem, ⟨7, _⟩ => ⟨S600x128, .f32⟩
  | .local _ .vmem, ⟨8, _⟩ => ⟨S10000x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S600x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S600x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x10000x128_S10000x128 : S1x10000x128.ShapeCasts S10000x128
  transposes_S128x128_S128x128_1_0 : S128x128.Transposes [1, 0] S128x128
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S600x10000_S600x10000_0_0 : ∀ a, (![0, 0] : Fin 2 → Nat) a + S600x10000.size a ≤ S600x10000.size a
  h_S600x10000 : 0 < S600x10000.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S600x128_S600x128_0_0 : ∀ a, (![0, 0] : Fin 2 → Nat) a + S600x128.size a ≤ S600x128.size a
  h_S600x128 : 0 < S600x128.numel
  bcast_S10000x128_S1x10000x128_1_2 : S10000x128.BroadcastsInDim S1x10000x128 (![1, 2] : Fin 2 → Fin S1x10000x128.rank)
  dot_S10000x128_S128x128_S10000x128_1_0_0_1_n_n_wf : DotDims.WF S10000x128 S128x128 S10000x128 [1] [0] [0] [1] [] []
  dot_S600x10000_S10000x128_S600x128_1_0_0_1_n_n_wf : DotDims.WF S600x10000 S10000x128 S600x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S600x10000.size a < S10000x10000.size a
  hwx0_4 : ∀ i : grid0.Coords, EltTy.bits .f32 = 32 ∨ (Rect.unit (s := S10000x10000) (fun a => cc0_transform_4 i a * S600x10000.size a) (fun a => (Pipeline.Clip.of (cc0_transform_4 i a) (S600x10000.size a) (S10000x10000.size a)).extent (S600x10000.size a)) fun a => Pipeline.Clip.inb (Pipeline.Clip.ok_of (hstart0_4 i a))).WholeWords (EltTy.packing .f32)
  hwxs0_4 : ∀ i : grid0.Coords, EltTy.bits .f32 = 32 ∨ (Rect.unit (s := S600x10000) (fun _ => 0) (fun a => (Pipeline.Clip.of (cc0_transform_4 i a) (S600x10000.size a) (S10000x10000.size a)).extent (S600x10000.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S600x128.size a < S10000x128.size a
  hwx0_5 : ∀ i : grid0.Coords, EltTy.bits .f32 = 32 ∨ (Rect.unit (s := S10000x128) (fun a => cc0_transform_5 i a * S600x128.size a) (fun a => (Pipeline.Clip.of (cc0_transform_5 i a) (S600x128.size a) (S10000x128.size a)).extent (S600x128.size a)) fun a => Pipeline.Clip.inb (Pipeline.Clip.ok_of (hstart0_5 i a))).WholeWords (EltTy.packing .f32)
  hwxs0_5 : ∀ i : grid0.Coords, EltTy.bits .f32 = 32 ∨ (Rect.unit (s := S600x128) (fun _ => 0) (fun a => (Pipeline.Clip.of (cc0_transform_5 i a) (S600x128.size a) (S10000x128.size a)).extent (S600x128.size a)) fun a => (Nat.zero_add _).trans_le (Pipeline.Clip.extent_le (Pipeline.Clip.ok_of (hstart0_5 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S600x10000_S10000x128_S600x128_1_0_0_1_n_n : DotDims S600x10000 S10000x128 S600x128 where
  lhsContracting := [1]
  rhsContracting := [0]
  lhsNonContracting := [0]
  rhsNonContracting := [1]
  lhsBatch := []
  rhsBatch := []
  wf := dot_S600x10000_S10000x128_S600x128_1_0_0_1_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_arg1) S600x10000.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v4) S600x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S1x1x128 : Shape := ⟨3, ![1, 1, 128]⟩
abbrev S10000x128 : Shape := ⟨2, ![10000, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S1x10000x128, .f32⟩
  | .hbm, ⟨6, _⟩ => ⟨S1x1x128, .f32⟩
  | .hbm, ⟨7, _⟩ => ⟨S1x10000x128, .f32⟩
  | .hbm, ⟨8, _⟩ => ⟨S1x10000x128, .f32⟩
  | .hbm, ⟨9, _⟩ => ⟨S10000x128, .f32⟩
  | .hbm, ⟨10, _⟩ => ⟨S10000x128, .f32⟩
  | .hbm, ⟨11, _⟩ => ⟨S1x10000x128, .f32⟩
  | .hbm, ⟨12, _⟩ => ⟨S_, .f32⟩
  | .hbm, ⟨13, _⟩ => ⟨S1x10000x128, .f32⟩
  | .hbm, ⟨14, _⟩ => ⟨S1x10000x128, .i1⟩
  | .hbm, ⟨15, _⟩ => ⟨S_, .f32⟩
  | .hbm, ⟨16, _⟩ => ⟨S1x10000x128, .f32⟩
  | .hbm, ⟨17, _⟩ => ⟨S1x10000x128, .f32⟩
  | .hbm, ⟨18, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  shapeCasts_S1x10000x128_S10000x128 : S1x10000x128.ShapeCasts S10000x128
  bcast_S10000x128_S1x10000x128_1_2 : S10000x128.BroadcastsInDim S1x10000x128 (![1, 2] : Fin 2 → Fin S1x10000x128.rank)
  bcast_S_S1x10000x128 : S_.BroadcastsInDim S1x10000x128 (![] : Fin 0 → Fin S1x10000x128.rank)
  shapeCasts_S1_S_ : S1.ShapeCasts S_
  dot_S1x10000x128_S128x128_S1x10000x128_2_1_01_0_n_n_wf : DotDims.WF S1x10000x128 S128x128 S1x10000x128 [2] [1] [0, 1] [0] [] []
  dot_S10000x10000_S10000x128_S10000x128_1_0_0_1_n_n_wf : DotDims.WF S10000x10000 S10000x128 S10000x128 [1] [0] [0] [1] [] []

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyK.lean ====
/-
  The kernel body as a triple, on any whole staging memrefs, at any float instance.

  The body has one branch, on the grid coordinate: at the first point it loads x, Wᵀ and b, and stores
  the projection `k0_pay1 x Wᵀ b` into the scratch. At every point it then loads the adjacency block,
  the scratch and the slope, and stores `k0_pay2 block scratch slope` into the result's buffer. So:

  * at the first point (`body_first`), whatever the scratch and the result's buffer held, the scratch
    ends at the projection of what the three resident inputs hold and the result's buffer at the
    payload of the block and THAT projection;
  * at a later point (`body_later`), the scratch is read and left as found, and the result's buffer
    ends at the payload of the block and what the scratch held.

  Every input buffer is left as found. All accesses are whole-buffer rectangles at offset zero, so a
  load reads the contents and a store leaves its payload.
-/
import proofs.«141032_g8650064134273_cont_sun_m_1390_14_alg».proof.Proof.Gen.Kernel.Frame
import proofs.«141032_g8650064134273_cont_sun_m_1390_14_alg».proof.Proof.Gen.Kernel.Skeleton
import Idealize.ShloMosaic.Lib.Pipeline.FrameBody
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch is taken exactly when the grid coordinate is zero. -/
abbrev isFirst (i : grid0.Coords) : Prop :=
  (Scalar.cmpi .ne (Scalar.extui (Scalar.cmpi .eq (BitVec.ofNat 32 (i 0).val) 0#32)) 0#32) = 1#1

/-- Over the 17 points: exactly at point 0. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- The first point: the scratch ends at the projection, the result's buffer at the payload over it. -/
theorem body_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S600x10000 .f32) (harg5 : arg5.IsWhole) (arg6 : Memref sig .tc .vmem S600x128 .f32) (harg6 : arg6.IsWhole)
    (arg7 : Memref sig .tc .vmem S10000x128 .f32) (harg7 : arg7.IsWhole) (hc : isFirst i)
    (x0 : Vec F S10000x128 .f32) (x1 : Vec F S128x128 .f32) (x2 : Vec F S1x128 .f32) (x3 : Vec F S1x1 .f32) (x4 : Vec F S600x10000 .f32)
    (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4
          ∗ (∃ d, owns (c : Thread nD τ) arg6 fullShare d) ∗ (∃ d, owns (c : Thread nD τ) arg7 fullShare d)
          ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ owns (c : Thread nD τ) arg6 fullShare (k0_pay2 x4 (k0_pay1 x0 x1 x2) x3)
                ∗ owns (c : Thread nD τ) arg7 fullShare (k0_pay1 x0 x1 x2)) -∗ K ⟨⟩))
      ⊢ wp frame (wpE (defs₀ (F := F)) Variants.none c none) E
          (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2
  obtain rfl := harg4.eq_unread hf3; obtain rfl := harg5.eq_unread hf4
  sl_exec (disch := exact hc)
  sl_step
  iapply Hk
  have hz : (![0, 0] : Fin 2 → Nat) = fun _ => 0 := funext fun a => by fin_cases a <;> rfl
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · -- the result's buffer: one whole store, of the payload over the loads and the scratch just stored
    iexists _; isplitr
    swap; · iexact H5
    ipureintro
    rw [View.read_writes_eq_canon _ _ _ (fun y => ⟨_, List.mem_singleton_self _, View.mem_set_unit_zero hz Facts₀.inb_S600x128_S600x128_0_0 y⟩)]
    sl_unfold_run_names
    rw [View.canon_unit_zero hz]
    simp only [View.readAt_eq_ld, harg1.read_unread, harg2.read_unread, harg3.read_unread, harg4.read_unread, harg5.read_unread,
      View.ld_unit_zero (S := S10000x128) hz, View.ld_unit_zero (S := S128x128) hz, View.ld_unit_zero (S := S1x128) hz,
      View.ld_unit_zero (S := S1x1) hz, View.ld_unit_zero (S := S600x10000) hz, View.readCov_unit_zero (S := S10000x128) _ hz]
  · -- the scratch: one whole store, of the projection over the three loads
    iexists _; isplitr
    swap; · iexact H6
    ipureintro
    sl_unfold_run_names
    rw [View.read_writes_eq_canon _ _ _ (fun y => ⟨_, List.mem_singleton_self _, View.mem_set_unit_zero hz Facts₀.inb_S10000x128_S10000x128_0_0 y⟩)]
    rw [View.canon_unit_zero hz]
    simp only [View.readAt_eq_ld, harg1.read_unread, harg2.read_unread, harg3.read_unread,
      View.ld_unit_zero (S := S10000x128) hz, View.ld_unit_zero (S := S128x128) hz, View.ld_unit_zero (S := S1x128) hz]

set_option maxHeartbeats 1000000 in
/-- A later point: the scratch is read and left as found; the result's buffer ends at the payload over it. -/
theorem body_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S600x10000 .f32) (harg5 : arg5.IsWhole) (arg6 : Memref sig .tc .vmem S600x128 .f32) (harg6 : arg6.IsWhole)
    (arg7 : Memref sig .tc .vmem S10000x128 .f32) (harg7 : arg7.IsWhole) (hc : ¬isFirst i)
    (x0 : Vec F S10000x128 .f32) (x1 : Vec F S128x128 .f32) (x2 : Vec F S1x128 .f32) (x3 : Vec F S1x1 .f32) (x4 : Vec F S600x10000 .f32)
    (xs : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4
          ∗ (∃ d, owns (c : Thread nD τ) arg6 fullShare d) ∗ owns (c : Thread nD τ) arg7 fullShare xs
          ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ owns (c : Thread nD τ) arg6 fullShare (k0_pay2 x4 xs x3)
                ∗ owns (c : Thread nD τ) arg7 fullShare xs) -∗ K ⟨⟩))
      ⊢ wp frame (wpE (defs₀ (F := F)) Variants.none c none) E
          (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf6
  sl_exec (disch := exact hc)
  sl_step
  iapply Hk
  have hz : (![0, 0] : Fin 2 → Nat) = fun _ => 0 := funext fun a => by fin_cases a <;> rfl
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · -- the result's buffer: one whole store, of the payload over the loads
    iexists _; isplitr
    swap; · iexact H5
    ipureintro
    rw [View.read_writes_eq_canon _ _ _ (fun y => ⟨_, List.mem_singleton_self _, View.mem_set_unit_zero hz Facts₀.inb_S600x128_S600x128_0_0 y⟩)]
    sl_unfold_run_names
    rw [View.canon_unit_zero hz]
    simp only [View.readAt_eq_ld, harg4.read_unread, harg5.read_unread, harg7.read_unread,
      View.ld_unit_zero (S := S10000x128) hz, View.ld_unit_zero (S := S1x1) hz, View.ld_unit_zero (S := S600x10000) hz]
  · iexists _; isplitr; · ipureintro; exact harg7.read_unread _
    iexact H6

end Cert.Kernel.Hand

end
-- ==== Proof.FrameK.lean ====
/-
  The word-level kernel's frame: it terminates, faults nowhere, and leaves its five argument arrays as it found them.

  The adjacency block (window 4) and the result block (window 5) overhang their arrays at the last grid point, so
  what the staging buffers hold there beyond the array is unnamed; and at the word level a matrix product is an
  uninterpreted function of its whole operands. Hence what the body leaves in the result's buffer is not named.
  The frame does not need it: the proof data constrain every buffer by the relation that always holds, and the
  invariant at every point is the scratch at SOME contents and the generator register at some state.

  The body at a point either is the first (it writes the scratch, whatever it held) or a later one (it reads the
  scratch and leaves it as found); in both cases every input buffer comes back as handed over and the result's
  buffer at some contents, which is all the relation asks.

  Of the five arguments, the adjacency is window 4's array, an input the pipeline never writes; the other four
  bypass the region, and the one host operation after it writes only the result.
-/
import proofs.«141032_g8650064134273_cont_sun_m_1390_14_alg».proof.Proof.BodyK
import proofs.«141032_g8650064134273_cont_sun_m_1390_14_alg».proof.Defs
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The pipeline's data on core `c`: the arrays as the region finds them; every window's buffer may be left at
    anything, whatever it held; the invariant is the scratch at some contents and the generator register at some
    state, the same before and after every point; full shares; nothing owed. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-- The invariant spelled out: the one scratch buffer, whole, at some contents, and the generator register. -/
theorem PhiA_eq (c : Dev nD) :
    (Pipeline.ΦA spec0 c : sProp 𝕄)
      = iprop(iprop((∃ d, owns (c : Thread nD τ) (Memref.whole cc0_scratch0 : Memref sig .tc .vmem S10000x128 .f32) fullShare d)) ∗ (∃ r, prngReg c r)) := by
  unfold Pipeline.ΦA; rw [scopedRest0_eq]; simp only [owns_whole]; try rfl

/-! ## The body obligation -/

set_option maxHeartbeats 1600000 in
/-- At every point, from the invariant, what is owed and the six current buffers at any contents, the body runs to the
    invariant, the same owed, and the six buffers at some contents each. At the first point the scratch and the
    result's buffer are handed over at whatever they hold and come back written; at a later point the scratch is
    handed over at the contents the invariant hides and comes back unchanged. -/
theorem body_obligation (c : Dev nD) : (rdat m c).BodyObligation (defs₀ (F := F)) Variants.none () Set.univ := by
  intro t Y _
  rw [bigSep_W0, bigSep_W0]
  rw [show (rdat m c).owesAt () t.succ = (rdat m c).owesAt () t.castSucc from rfl]
  rw [show (rdat m c).Φ t.succ = Pipeline.ΦA spec0 c from rfl, show (rdat m c).Φ t.castSucc = Pipeline.ΦA spec0 c from rfl, PhiA_eq]
  show _ ⊢ wp frame (wpE (defs₀ (F := F)) Variants.none c none) Set.univ (bodyAt0 t) _
  unfold bodyAt0
  by_cases hc : isFirst (grid0.coords t)
  · iintro ⟨⟨HS, Hg⟩, Ho, H0, H1, H2, H3, H4, H5⟩
    iapply (body_first c (grid0.coords t) _ _ _ _ _ _ _ _ _ _ _ _ _ _ hc (Y 0) (Y 1) (Y 2) (Y 3) (Y 4) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hg]
    · isplitl [HS]
      · iexists _; iexact HS
      iexact Hg
    isplitl [Ho]; · iexact Ho
    isplitl [H0]
    · iexists _; isplitr
      swap; · iexact H0
      ipureintro; trivial
    isplitl [H1]
    · iexists _; isplitr
      swap; · iexact H1
      ipureintro; trivial
    isplitl [H2]
    · iexists _; isplitr
      swap; · iexact H2
      ipureintro; trivial
    isplitl [H3]
    · iexists _; isplitr
      swap; · iexact H3
      ipureintro; trivial
    isplitl [H4]
    · iexists _; isplitr
      swap; · iexact H4
      ipureintro; trivial
    · iexists _; isplitr
      swap; · iexact H5
      ipureintro; trivial
  · iintro ⟨⟨⟨%d, HS⟩, Hg⟩, Ho, H0, H1, H2, H3, H4, H5⟩
    iapply (body_later c (grid0.coords t) _ _ _ _ _ _ _ _ _ _ _ _ _ _ hc (Y 0) (Y 1) (Y 2) (Y 3) (Y 4) d Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hg]
    · isplitl [HS]
      · iexists _; iexact HS
      iexact Hg
    isplitl [Ho]; · iexact Ho
    isplitl [H0]
    · iexists _; isplitr
      swap; · iexact H0
      ipureintro; trivial
    isplitl [H1]
    · iexists _; isplitr
      swap; · iexact H1
      ipureintro; trivial
    isplitl [H2]
    · iexists _; isplitr
      swap; · iexact H2
      ipureintro; trivial
    isplitl [H3]
    · iexists _; isplitr
      swap; · iexact H3
      ipureintro; trivial
    isplitl [H4]
    · iexists _; isplitr
      swap; · iexact H4
      ipureintro; trivial
    · iexists _; isplitr
      swap; · iexact H5
      ipureintro; trivial

/-! ## The launch -/

set_option backward.isDefEq.respectTransparency.types false in
/-- From any memory with zero counters, every weakly fair execution of @main on the TensorCores terminates, and at the end
    every array of the pipeline holds something the data allow and every other unscoped buffer but the result holds what it
    held when the region was entered. -/
theorem run_main : θ_run defs (onTc (τ := τ) (main (F := F))) (s₀ m ρ)
    (Pipeline.RDat.FramePostR cfg0 (rdat m) {main_v5} (fun c b => V0 m c (Proc.devRef .tc b))) :=
  Pipeline.RDat.θ_run_frame_around_T cfgs (0 : Fin 1) launch0 defs₀ Variants.none (rdat m) {main_v5} m ρ main
    (hbody := body_obligation m)
    (hshare := fun c w => by unfold Pipeline.RDat.share; split <;> rfl)
    (howed := fun _ _ => rfl) (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      rw [StableHlo.unary_writes, Finset.mem_singleton] at hb
      exact Finset.mem_singleton.mpr (Proc.devRef_injective _ hb))
    (hmain := hmain m Variants.none) (hA := fun _ _ => rfl) (hΦ := fun _ _ => rfl)

/-! ## The claim -/

/-- The adjacency is window 4's array, an input: it ends at its entry contents, which no host operation before the region
    wrote. The other four arguments bypass the region and are not the result: they end as at the region's entry, likewise
    as launched. -/
theorem frame [hPre_finite_inputs : Cert.Pre_finite_inputs.Facts] : Cert.frame_Kernel := by
  intro m ρ _
  exact (θ_run defs _ _).mono
    (fun r h c =>
      ⟨((h c).2 main_arg0 (Finset.mem_sdiff.mpr ⟨Pipeline.mem_restRefs_of main_arg0 (by decide) (by decide), by decide⟩)).trans (V_main_arg0 m c),
       (Pipeline.RDat.FramePostR.arr_in h c 4 rfl).trans (V_main_arg1 m c),
       ((h c).2 main_arg2 (Finset.mem_sdiff.mpr ⟨Pipeline.mem_restRefs_of main_arg2 (by decide) (by decide), by decide⟩)).trans (V_main_arg2 m c),
       ((h c).2 main_arg3 (Finset.mem_sdiff.mpr ⟨Pipeline.mem_restRefs_of main_arg3 (by decide) (by decide), by decide⟩)).trans (V_main_arg3 m c),
       ((h c).2 main_arg4 (Finset.mem_sdiff.mpr ⟨Pipeline.mem_restRefs_of main_arg4 (by decide) (by decide), by decide⟩)).trans (V_main_arg4 m c)⟩)
    (run_main (F := Bits) m ρ)

end Cert.Kernel.Hand

end
-- ==== Proof.DataI.lean ====
/-
  The proof data of the idealized kernel's one pipeline (definitions only).

  The grid has 17 points; point t handles rows 600·t … 600·t+599 of the adjacency matrix `a` and of the
  result, and the last point's block overhangs both arrays by 200 rows. The first point also fills a
  scratch with the projection x·Wᵀ + b, which every later point reads back.

  * the arrays as the region finds them, at their literal types (`xarr` … `aarr`);
  * `xth`: what the first point leaves in the scratch, and what every later point finds there;
  * `ablk`: the part of `a`'s block at a point that lies inside the array; `ablk8`: that part filled
    out to the whole 600-row block with a word nothing reads;
  * `oblk`: the block the body computes from `ablk8`, the scratch and the slope;
  * `PhiS`: the invariant between points — before the first point the scratch holds anything, after
    it the projection;
  * `dats`: the pipeline's proof data over these.
-/
import proofs.«141032_g8650064134273_cont_sun_m_1390_14_alg».proof.Proof.Gen.KernelIdeal.Frame
import proofs.«141032_g8650064134273_cont_sun_m_1390_14_alg».proof.Proof.Gen.KernelIdeal.Skeleton
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ)

/-! ## The arrays the region reads, at their literal types -/

/-- `x` with its unit axis dropped: [10000, 128]. -/
abbrev xarr (c : Dev nD) : Vec F S10000x128 .f32 := V m c main_v0
/-- `W` transposed: [128, 128]. -/
abbrev wtarr (c : Dev nD) : Vec F S128x128 .f32 := V m c main_v1
/-- `b` as a row: [1, 128]. -/
abbrev barr (c : Dev nD) : Vec F S1x128 .f32 := V m c main_v2
/-- The slope as a [1, 1] matrix. -/
abbrev parr (c : Dev nD) : Vec F S1x1 .f32 := V m c main_v3
/-- The adjacency matrix: [10000, 10000]. -/
abbrev aarr (c : Dev nD) : Vec F S10000x10000 .f32 := V m c main_arg1

/-! ## What the body computes -/

/-- The projection x·Wᵀ + b: what the first point stores in the scratch. -/
def xth (c : Dev nD) : Vec F S10000x128 .f32 := k0_pay1 (xarr m c) (wtarr m c) (barr m c)

/-- The part of `a`'s block at point `t` inside the array (600 rows; 400 at the last point). -/
def ablk (c : Dev nD) (t : Fin cfg0.N) : (win0_4.xblock (grid0.coords t)).Idx → Elt F .f32 :=
  (win0_4.blk t).view.read (Elt F) (aarr m c)

/-- That part filled out to the whole block with the zero word (a filler nothing reads). -/
def ablk8 (c : Dev nD) (t : Fin cfg0.N) : Vec F S600x10000 .f32 :=
  win0_4.fill (grid0.coords t) (fun _ => Scalar.ofBits .f32 0#32) (ablk m c t)

/-- The block of results the body computes at point `t` from that, the projection and the slope. -/
def oblk (c : Dev nD) (t : Fin cfg0.N) : Vec F S600x128 .f32 :=
  k0_pay2 (ablk8 m c t) (xth m c) (parr m c)

/-! ## The invariant between points and the proof data -/

/-- The kernel's scratch, whole. -/
abbrev scM : Memref sig .tc .vmem S10000x128 .f32 := Memref.whole cc0_scratch0

/-- Before the first point the scratch holds anything; after it, the projection. -/
def PhiS (c : Dev nD) : ℕ → sProp 𝕄
  | 0 => Pipeline.ΦA spec0 c
  | _ + 1 => iprop(owns (c : Thread nD τ) scM fullShare (xth m c) ∗ (∃ r, prngReg c r))

theorem PhiS_zero (c : Dev nD) : PhiS m c 0 = Pipeline.ΦA spec0 c := rfl

theorem PhiS_succ (c : Dev nD) (n : ℕ) :
    PhiS m c (n + 1) = iprop(owns (c : Thread nD τ) scM fullShare (xth m c) ∗ (∃ r, prngReg c r)) := rfl

theorem PhiS_pos (c : Dev nD) (n : ℕ) (hz : n ≠ 0) :
    PhiS m c n = iprop(owns (c : Thread nD τ) scM fullShare (xth m c) ∗ (∃ r, prngReg c r)) := by
  cases n with
  | zero => exact absurd rfl hz
  | succ n => rfl

/-- The proof data: the arrays as the region finds them; after the body the four resident inputs'
    buffers at their blocks, `a`'s at its block filled out, the result's at the computed block; the
    invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => ablk8 m c t
    | ⟨5, _⟩ => oblk m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = ablk8 m c t := by dsimp only [dats]
theorem after_5 (c : Dev nD) (t : Fin cfg0.N) : (dats m 0 c).after 5 t = oblk m c t := by dsimp only [dats]

end Cert.KernelIdeal.Hand

end
-- ==== Proof.BodyI.lean ====
/-
  The kernel body as a triple, on any whole staging memrefs, at any float instance.

  The body has one branch, on the grid coordinate: at the first point it loads x, Wᵀ and b, and stores
  the projection `k0_pay1 x Wᵀ b` into the scratch. At every point it then loads the adjacency block,
  the scratch and the slope, and stores `k0_pay2 block scratch slope` into the result's buffer. So:

  * at the first point (`body_first`), whatever the scratch and the result's buffer held, the scratch
    ends at the projection of what the three resident inputs hold and the result's buffer at the
    payload of the block and THAT projection;
  * at a later point (`body_later`), the scratch is read and left as found, and the result's buffer
    ends at the payload of the block and what the scratch held.

  Every input buffer is left as found. All accesses are whole-buffer rectangles at offset zero, so a
  load reads the contents and a store leaves its payload.
-/
import proofs.«141032_g8650064134273_cont_sun_m_1390_14_alg».proof.Proof.Gen.KernelIdeal.Frame
import proofs.«141032_g8650064134273_cont_sun_m_1390_14_alg».proof.Proof.Gen.KernelIdeal.Skeleton
import Idealize.ShloMosaic.Lib.Pipeline.FrameBody
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch is taken exactly when the grid coordinate is zero. -/
abbrev isFirst (i : grid0.Coords) : Prop :=
  (Scalar.cmpi .ne (Scalar.extui (Scalar.cmpi .eq (BitVec.ofNat 32 (i 0).val) 0#32)) 0#32) = 1#1

/-- Over the 17 points: exactly at point 0. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- The first point: the scratch ends at the projection, the result's buffer at the payload over it. -/
theorem body_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S600x10000 .f32) (harg5 : arg5.IsWhole) (arg6 : Memref sig .tc .vmem S600x128 .f32) (harg6 : arg6.IsWhole)
    (arg7 : Memref sig .tc .vmem S10000x128 .f32) (harg7 : arg7.IsWhole) (hc : isFirst i)
    (x0 : Vec F S10000x128 .f32) (x1 : Vec F S128x128 .f32) (x2 : Vec F S1x128 .f32) (x3 : Vec F S1x1 .f32) (x4 : Vec F S600x10000 .f32)
    (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4
          ∗ (∃ d, owns (c : Thread nD τ) arg6 fullShare d) ∗ (∃ d, owns (c : Thread nD τ) arg7 fullShare d)
          ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ owns (c : Thread nD τ) arg6 fullShare (k0_pay2 x4 (k0_pay1 x0 x1 x2) x3)
                ∗ owns (c : Thread nD τ) arg7 fullShare (k0_pay1 x0 x1 x2)) -∗ K ⟨⟩))
      ⊢ wp frame (wpE (defs₀ (F := F)) Variants.none c none) E
          (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2
  obtain rfl := harg4.eq_unread hf3; obtain rfl := harg5.eq_unread hf4
  sl_exec (disch := exact hc)
  sl_step
  iapply Hk
  have hz : (![0, 0] : Fin 2 → Nat) = fun _ => 0 := funext fun a => by fin_cases a <;> rfl
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · -- the result's buffer: one whole store, of the payload over the loads and the scratch just stored
    iexists _; isplitr
    swap; · iexact H5
    ipureintro
    rw [View.read_writes_eq_canon _ _ _ (fun y => ⟨_, List.mem_singleton_self _, View.mem_set_unit_zero hz Facts₀.inb_S600x128_S600x128_0_0 y⟩)]
    sl_unfold_run_names
    rw [View.canon_unit_zero hz]
    simp only [View.readAt_eq_ld, harg1.read_unread, harg2.read_unread, harg3.read_unread, harg4.read_unread, harg5.read_unread,
      View.ld_unit_zero (S := S10000x128) hz, View.ld_unit_zero (S := S128x128) hz, View.ld_unit_zero (S := S1x128) hz,
      View.ld_unit_zero (S := S1x1) hz, View.ld_unit_zero (S := S600x10000) hz, View.readCov_unit_zero (S := S10000x128) _ hz]
  · -- the scratch: one whole store, of the projection over the three loads
    iexists _; isplitr
    swap; · iexact H6
    ipureintro
    sl_unfold_run_names
    rw [View.read_writes_eq_canon _ _ _ (fun y => ⟨_, List.mem_singleton_self _, View.mem_set_unit_zero hz Facts₀.inb_S10000x128_S10000x128_0_0 y⟩)]
    rw [View.canon_unit_zero hz]
    simp only [View.readAt_eq_ld, harg1.read_unread, harg2.read_unread, harg3.read_unread,
      View.ld_unit_zero (S := S10000x128) hz, View.ld_unit_zero (S := S128x128) hz, View.ld_unit_zero (S := S1x128) hz]

set_option maxHeartbeats 1000000 in
/-- A later point: the scratch is read and left as found; the result's buffer ends at the payload over it. -/
theorem body_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S600x10000 .f32) (harg5 : arg5.IsWhole) (arg6 : Memref sig .tc .vmem S600x128 .f32) (harg6 : arg6.IsWhole)
    (arg7 : Memref sig .tc .vmem S10000x128 .f32) (harg7 : arg7.IsWhole) (hc : ¬isFirst i)
    (x0 : Vec F S10000x128 .f32) (x1 : Vec F S128x128 .f32) (x2 : Vec F S1x128 .f32) (x3 : Vec F S1x1 .f32) (x4 : Vec F S600x10000 .f32)
    (xs : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4
          ∗ (∃ d, owns (c : Thread nD τ) arg6 fullShare d) ∗ owns (c : Thread nD τ) arg7 fullShare xs
          ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ owns (c : Thread nD τ) arg6 fullShare (k0_pay2 x4 xs x3)
                ∗ owns (c : Thread nD τ) arg7 fullShare xs) -∗ K ⟨⟩))
      ⊢ wp frame (wpE (defs₀ (F := F)) Variants.none c none) E
          (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf6
  sl_exec (disch := exact hc)
  sl_step
  iapply Hk
  have hz : (![0, 0] : Fin 2 → Nat) = fun _ => 0 := funext fun a => by fin_cases a <;> rfl
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · -- the result's buffer: one whole store, of the payload over the loads
    iexists _; isplitr
    swap; · iexact H5
    ipureintro
    rw [View.read_writes_eq_canon _ _ _ (fun y => ⟨_, List.mem_singleton_self _, View.mem_set_unit_zero hz Facts₀.inb_S600x128_S600x128_0_0 y⟩)]
    sl_unfold_run_names
    rw [View.canon_unit_zero hz]
    simp only [View.readAt_eq_ld, harg4.read_unread, harg5.read_unread, harg7.read_unread,
      View.ld_unit_zero (S := S10000x128) hz, View.ld_unit_zero (S := S1x1) hz, View.ld_unit_zero (S := S600x10000) hz]
  · iexists _; isplitr; · ipureintro; exact harg7.read_unread _
    iexact H6

end Cert.KernelIdeal.Hand

end
-- ==== Proof.Spec.lean ====
/-
  The layer's result as ONE function of the five argument arrays, index by index, over the extended
  reals: a dense graph convolution followed by a parametric rectifier,

      proj k o = (Σ_d x[0,k,d] · W[o,d]) + b[o]            (the linear map of node k's features)
      agg  r o = Σ_k a[r,k] · proj k o                      (node r aggregates every node's projection)
      out[0,r,o] = prelu p (agg r o),   prelu p v = v if v ≥ 0, else p · v,   p = prelu_w[0].

  The rectifier is spelled with the model's own comparison and selection, so that both programs meet
  it verbatim and neither is opened; the zero it compares with is the all-zero binary32 word.
-/
import Idealize.ShloMosaic.PureOps.Ideal
import Idealize.ShloMosaic.Lib.ValueIdx

noncomputable section

namespace Gcn

open Idealize.ShloMosaic Idealize.ShloMosaic.ValueIdx

abbrev Sx : Shape := ⟨3, ![1, 10000, 128]⟩
abbrev Sa : Shape := ⟨2, ![10000, 10000]⟩
abbrev Sw : Shape := ⟨2, ![128, 128]⟩
abbrev Sb : Shape := ⟨1, ![128]⟩
abbrev Sp : Shape := ⟨1, ![1]⟩
abbrev Sh : Shape := ⟨2, ![10000, 128]⟩

/-- Node `k`'s projected features, channel `o`: the row of `x` against row `o` of `W`, plus the bias. -/
def proj (x : Sx.Idx → EReal) (W : Sw.Idx → EReal) (b : Sb.Idx → EReal) (k : Fin 10000) (o : Fin 128) : EReal :=
  (∑ d : Fin 128, x (ix3 0 k d) * W (ix2 o d)) + b (ix1 o)

/-- Node `r`'s aggregate, channel `o`: row `r` of the adjacency against column `o` of the projections. -/
def agg (x : Sx.Idx → EReal) (a : Sa.Idx → EReal) (W : Sw.Idx → EReal) (b : Sb.Idx → EReal) (r : Fin 10000) (o : Fin 128) : EReal :=
  ∑ k : Fin 10000, a (ix2 r k) * proj x W b k o

/-- The parametric rectifier with slope `p`. -/
def prelu (p v : EReal) : EReal :=
  Scalar.select (FloatOps.cmpf (F := Ideal) .oge v (FloatOps.ofBits (F := Ideal) .f32 0x00000000#32)) v (p * v)

/-- The layer's result as the [10000, 128] matrix the kernel writes. -/
def out2 (x : Sx.Idx → EReal) (a : Sa.Idx → EReal) (W : Sw.Idx → EReal) (b : Sb.Idx → EReal) (p : Sp.Idx → EReal) : Sh.Idx → EReal :=
  fun i => prelu (p (ix1 0)) (agg x a W b (i 0) (i 1))

/-- The layer's result with the leading unit axis both programs return it with. -/
def out (x : Sx.Idx → EReal) (a : Sa.Idx → EReal) (W : Sw.Idx → EReal) (b : Sb.Idx → EReal) (p : Sp.Idx → EReal) : Sx.Idx → EReal :=
  fun i => prelu (p (ix1 0)) (agg x a W b (i 1) (i 2))

end Gcn

end
-- ==== Proof.PayloadI.lean ====
/-
  The two values the kernel body stores, read at an index, over the extended reals.

  The first is the projection every later grid point reads: at (k, o) the row k of the node features
  against column o of the transposed weights, plus the bias row at o. The second is one block of the
  result: at (r, o) the rectifier of row r of the adjacency block against column o of the projections,
  with the slope read from the [1,1] parameter array.

  Both products are contractions of one axis into a zero accumulator, so each is the plain finite sum
  over that axis; the remaining operations act coordinate by coordinate.
-/
import proofs.«141032_g8650064134273_cont_sun_m_1390_14_alg».proof.Proof.Gen.KernelIdeal.Skeleton
import proofs.«141032_g8650064134273_cont_sun_m_1390_14_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The projection's contraction: [10000,128] against [128,128] over the shared axis of 128 -/

/-- The left operand is read at the output's row … -/
theorem lhs_proj_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and at the contracted coordinate on its second axis. -/
theorem lhs_proj_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand is read at the contracted coordinate on its first axis … -/
theorem rhs_proj_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and at the output's column. -/
theorem rhs_proj_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into a zero accumulator at (k, o): the sum over the shared axis d of A[k,d] · B[d,o]. -/
theorem matmul_proj_apply (A : FVec Ideal S10000x128 .f32) (B : FVec Ideal S128x128 .f32) (k : Fin 10000) (o : Fin 128) :
    matmul dot_S10000x128_S128x128_S10000x128_1_0_0_1_n_n none A B (constant (F := Ideal) S10000x128 .f32 0x00000000#32) (ix2 k o)
      = ∑ d : Fin 128, A (ix2 k d) * B (ix2 d o) := by
  simp only [matmul]
  rw [Ideal.matmul_constant_zero_apply, ← Equiv.sum_comp (contrEquiv1 dot_S10000x128_S128x128_S10000x128_1_0_0_1_n_n 128 rfl rfl).symm]
  refine Finset.sum_congr rfl fun d _ => ?_
  have hd := contrEquiv1_symm_val dot_S10000x128_S128x128_S10000x128_1_0_0_1_n_n 128 rfl rfl d
  have el : dot_S10000x128_S128x128_S10000x128_1_0_0_1_n_n.lhsIdx (ix2 k o) ((contrEquiv1 dot_S10000x128_S128x128_S10000x128_1_0_0_1_n_n 128 rfl rfl).symm d) = ix2 k d := funext fun a => Fin.ext (by
    match a with
    | ⟨0, _⟩ => exact lhs_proj_0 _ _
    | ⟨1, _⟩ => exact (lhs_proj_1 _ _).trans hd)
  have er : dot_S10000x128_S128x128_S10000x128_1_0_0_1_n_n.rhsIdx (ix2 k o) ((contrEquiv1 dot_S10000x128_S128x128_S10000x128_1_0_0_1_n_n 128 rfl rfl).symm d) = ix2 d o := funext fun a => Fin.ext (by
    match a with
    | ⟨0, _⟩ => exact (rhs_proj_0 _ _).trans hd
    | ⟨1, _⟩ => exact rhs_proj_1 _ _)
  rw [el, er]

/-- The stored projection at (k, o): the features' row k against the transposed weights' column o, plus the bias at o.
    The shape casts are between equal shapes and the bias row is repeated down the 10000 rows. -/
theorem pay1_apply (X0 : Vec Ideal S10000x128 .f32) (X1 : Vec Ideal S128x128 .f32) (X2 : Vec Ideal S1x128 .f32) (k : Fin 10000) (o : Fin 128) :
    k0_pay1 (F := Ideal) X0 X1 X2 (ix2 k o) = (∑ d : Fin 128, X0 (ix2 k d) * X1 (ix2 d o)) + X2 (ix2 0 o) := by
  unfold k0_pay1
  simp only [shapeCast_self]
  rw [addf_apply, matmul_proj_apply, broadcastTo_1b_ab_apply]

/-! ## The aggregation's contraction: [600,10000] against [10000,128] over the shared axis of 10000 -/

/-- The left operand is read at the output's row … -/
theorem lhs_agg_0 (i : S600x128.Idx) (q : dot_S600x10000_S10000x128_S600x128_1_0_0_1_n_n.contr.Idx) :
    (dot_S600x10000_S10000x128_S600x128_1_0_0_1_n_n.lhsIdx i q 0).val = (i 0).val := by
  unfold DotDims.lhsIdx
  rw [dif_neg (show ¬(0 : Fin S600x10000.rank) ∈ dot_S600x10000_S10000x128_S600x128_1_0_0_1_n_n.lhsBatch by decide), dif_pos (show (0 : Fin S600x10000.rank) ∈ dot_S600x10000_S10000x128_S600x128_1_0_0_1_n_n.lhsNonContracting by decide)]
  rfl
/-- … and at the contracted coordinate on its second axis. -/
theorem lhs_agg_1 (i : S600x128.Idx) (q : dot_S600x10000_S10000x128_S600x128_1_0_0_1_n_n.contr.Idx) :
    (dot_S600x10000_S10000x128_S600x128_1_0_0_1_n_n.lhsIdx i q 1).val = (q ⟨0, by decide⟩).val :=
  dot_S600x10000_S10000x128_S600x128_1_0_0_1_n_n.lhsIdx_val_of_single rfl i q
/-- The right operand is read at the contracted coordinate on its first axis … -/
theorem rhs_agg_0 (i : S600x128.Idx) (q : dot_S600x10000_S10000x128_S600x128_1_0_0_1_n_n.contr.Idx) :
    (dot_S600x10000_S10000x128_S600x128_1_0_0_1_n_n.rhsIdx i q 0).val = (q ⟨0, by decide⟩).val :=
  dot_S600x10000_S10000x128_S600x128_1_0_0_1_n_n.rhsIdx_val_of_single rfl i q
/-- … and at the output's column. -/
theorem rhs_agg_1 (i : S600x128.Idx) (q : dot_S600x10000_S10000x128_S600x128_1_0_0_1_n_n.contr.Idx) :
    (dot_S600x10000_S10000x128_S600x128_1_0_0_1_n_n.rhsIdx i q 1).val = (i 1).val := by
  unfold DotDims.rhsIdx
  rw [dif_neg (show ¬(1 : Fin S10000x128.rank) ∈ dot_S600x10000_S10000x128_S600x128_1_0_0_1_n_n.rhsBatch by decide), dif_pos (show (1 : Fin S10000x128.rank) ∈ dot_S600x10000_S10000x128_S600x128_1_0_0_1_n_n.rhsNonContracting by decide)]
  rfl

/-- The product into a zero accumulator at (r, o): the sum over every node k of A[r,k] · B[k,o]. -/
theorem matmul_agg_apply (A : FVec Ideal S600x10000 .f32) (B : FVec Ideal S10000x128 .f32) (r : Fin 600) (o : Fin 128) :
    matmul dot_S600x10000_S10000x128_S600x128_1_0_0_1_n_n none A B (constant (F := Ideal) S600x128 .f32 0x00000000#32) (ix2 r o)
      = ∑ k : Fin 10000, A (ix2 r k) * B (ix2 k o) := by
  simp only [matmul]
  rw [Ideal.matmul_constant_zero_apply, ← Equiv.sum_comp (contrEquiv1 dot_S600x10000_S10000x128_S600x128_1_0_0_1_n_n 10000 rfl rfl).symm]
  refine Finset.sum_congr rfl fun k _ => ?_
  have hk := contrEquiv1_symm_val dot_S600x10000_S10000x128_S600x128_1_0_0_1_n_n 10000 rfl rfl k
  have el : dot_S600x10000_S10000x128_S600x128_1_0_0_1_n_n.lhsIdx (ix2 r o) ((contrEquiv1 dot_S600x10000_S10000x128_S600x128_1_0_0_1_n_n 10000 rfl rfl).symm k) = ix2 r k := funext fun a => Fin.ext (by
    match a with
    | ⟨0, _⟩ => exact lhs_agg_0 _ _
    | ⟨1, _⟩ => exact (lhs_agg_1 _ _).trans hk)
  have er : dot_S600x10000_S10000x128_S600x128_1_0_0_1_n_n.rhsIdx (ix2 r o) ((contrEquiv1 dot_S600x10000_S10000x128_S600x128_1_0_0_1_n_n 10000 rfl rfl).symm k) = ix2 k o := funext fun a => Fin.ext (by
    match a with
    | ⟨0, _⟩ => exact (rhs_agg_0 _ _).trans hk
    | ⟨1, _⟩ => exact rhs_agg_1 _ _)
  rw [el, er]

/-- The one entry of a [1,1] array, taken out at position (0, 0). -/
theorem extract_S1x1 (X3 : Vec Ideal S1x1 .f32) (h : ∀ a, (![0, 0] : Fin 2 → Nat) a < S1x1.size a) :
    extractAt ![0, 0] X3 h = X3 (ix2 0 0) := by
  unfold extractAt
  exact congrArg X3 (funext fun a => Fin.ext (by match a with | ⟨0, _⟩ => rfl | ⟨1, _⟩ => rfl))

/-- The stored block at (r, o): the rectifier, with the slope the [1,1] array holds, of row r of the adjacency block
    against column o of the projections. The comparison is against the all-zero word and the slope multiplies on the
    left, as in the specification. -/
theorem pay2_apply (X4 : Vec Ideal S600x10000 .f32) (S : Vec Ideal S10000x128 .f32) (X3 : Vec Ideal S1x1 .f32) (r : Fin 600) (o : Fin 128) :
    k0_pay2 (F := Ideal) X4 S X3 (ix2 r o) = Gcn.prelu (X3 (ix2 0 0)) (∑ k : Fin 10000, X4 (ix2 r k) * S (ix2 k o)) := by
  unfold k0_pay2 Gcn.prelu
  rw [select_apply, cmpf_apply, mulf_apply, broadcast_apply, broadcast_apply, matmul_agg_apply, extract_S1x1]

end Cert.KernelIdeal.Hand

end
-- ==== Proof.Layout.lean ====
/-
  How the arrays, the blocks and the host operations read at an index (no arithmetic on the entries: every
  statement holds for any float values).

  * Before the call: `x` with its unit axis dropped, `W` transposed, `b` as a row and the slope as a 1×1 matrix,
    each read at an index of the argument it was made from; the adjacency matrix is the argument itself.
  * The four resident inputs' windows have a constant index map and a block as large as the array: their block at
    every point is the whole array.
  * The adjacency block at point `t`, filled out to 600 rows, read at a row inside the array: row `r` of block `t`
    is row `600·t + r` of the matrix, the columns unchanged.
  * The result array after the last write-back is any `G2` that the computed blocks agree with on their rows inside
    the array: point `t` writes back rows `600·t … 600·t + 599` cut at 10000, and row `ρ` lies under point `ρ / 600`,
    so the seventeen cut blocks cover the array.
  * After the call: the broadcast to a leading unit axis reads the result at the two trailing coordinates.

  A block's element sits in its array, on each axis, at block index × block size + 1 × its coordinate inside the
  block; the block indices and the cut sizes are decided once over the seventeen points.
-/
import proofs.«141032_g8650064134273_cont_sun_m_1390_14_alg».proof.Proof.DataI
import Idealize.ShloMosaic.Lib.ValueIdx
import Idealize.ShloMosaic.Lib.Pipeline.Value
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Idealize.ShloMosaic.ValueIdx

variable {F : FTy → Type} [FloatOps F]

variable (m : (ℓ : Loc nD τ sig) → Buf (Elt F) ℓ)

/-! ## The host operations before the call, read at an index -/

theorem xarr_apply (c : Dev nD) (k : Fin 10000) (d : Fin 128) :
    xarr m c (ix2 k d) = (m ((c : Thread nD τ).loc main_arg0) : Vec F S1x10000x128 .f32) (ix3 0 k d) := by
  have e : (xarr m c : Vec F S10000x128 .f32)
      = shapeCast S10000x128 (m ((c : Thread nD τ).loc main_arg0) : Vec F S1x10000x128 .f32) shapeCasts_S1x10000x128_S10000x128 := by
    show StableHlo.after hostOps0 (fun b => m (c, b)) (Proc.devRef .tc main_v0) = _
    after_results
    rfl
  rw [e]
  refine shapeCast_apply (s := S1x10000x128) (t := S10000x128) _ _ _ (ix3 0 k d) ?_
  rw [Shape.rowMajor_val_two, Shape.rowMajor_val_three]
  show ((0 : Fin 1).val * 10000 + k.val) * 128 + d.val = k.val * 128 + d.val
  simp

theorem wtarr_apply (c : Dev nD) (d o : Fin 128) :
    wtarr m c (ix2 d o) = (m ((c : Thread nD τ).loc main_arg2) : Vec F S128x128 .f32) (ix2 o d) := by
  have e : (wtarr m c : Vec F S128x128 .f32)
      = transpose S128x128 [1, 0] (m ((c : Thread nD τ).loc main_arg2) : Vec F S128x128 .f32) transposes_S128x128_S128x128_1_0 := by
    show StableHlo.after hostOps0 (fun b => m (c, b)) (Proc.devRef .tc main_v1) = _
    after_results
  rw [e]
  refine transpose_apply (s := S128x128) (t := S128x128) _ _ _ _ (ix2 o d) fun b => ?_
  match b with
  | ⟨0, _⟩ => rfl
  | ⟨1, _⟩ => rfl

theorem barr_apply (c : Dev nD) (o : Fin 128) :
    barr m c (ix2 0 o) = (m ((c : Thread nD τ).loc main_arg3) : Vec F S128 .f32) (ix1 o) := by
  have e : (barr m c : Vec F S1x128 .f32)
      = shapeCast S1x128 (m ((c : Thread nD τ).loc main_arg3) : Vec F S128 .f32) shapeCasts_S128_S1x128 := by
    show StableHlo.after hostOps0 (fun b => m (c, b)) (Proc.devRef .tc main_v2) = _
    after_results
    rfl
  rw [e]
  refine shapeCast_apply (s := S128) (t := S1x128) _ _ _ (ix1 o) ?_
  rw [Shape.rowMajor_val_two, Shape.rowMajor_val_one]
  show o.val = (0 : Fin 1).val * 128 + o.val
  simp

theorem parr_apply (c : Dev nD) :
    parr m c (ix2 0 0) = (m ((c : Thread nD τ).loc main_arg4) : Vec F S1 .f32) (ix1 0) := by
  have e : (parr m c : Vec F S1x1 .f32)
      = shapeCast S1x1 (m ((c : Thread nD τ).loc main_arg4) : Vec F S1 .f32) shapeCasts_S1_S1x1 := by
    show StableHlo.after hostOps0 (fun b => m (c, b)) (Proc.devRef .tc main_v3) = _
    after_results
    rfl
  rw [e]
  refine shapeCast_apply (s := S1) (t := S1x1) _ _ _ (ix1 0) ?_
  rw [Shape.rowMajor_val_two, Shape.rowMajor_val_one]
  rfl

theorem aarr_eq (c : Dev nD) : aarr m c = m ((c : Thread nD τ).loc main_arg1) := V_main_arg1 m c

/-! ## The four resident inputs' blocks: at every point the whole array -/

/-- The index maps of the four resident input windows are constantly zero on both axes, decided once over the 17
    points: each block is its whole array. -/
theorem win03_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem iblk0_eq (c : Dev nD) (t : Fin cfg0.N) : (iblk m c 0 t : Vec F S10000x128 .f32) = xarr m c := by
  obtain ⟨a0, a1, -⟩ := win03_facts t
  funext y
  show V m c main_v0 (((cfg0.win 0).blk t).view.emb y) = V m c main_v0 y
  refine congrArg (V m c main_v0) (funext fun a => Fin.ext ?_)
  match a with
  | ⟨0, _⟩ => show win0_0.index t (0 : Fin 2) * 10000 + 1 * (y 0).val = (y 0).val; rw [a0]; omega
  | ⟨1, _⟩ => show win0_0.index t (1 : Fin 2) * 128 + 1 * (y 1).val = (y 1).val; rw [a1]; omega

theorem iblk1_eq (c : Dev nD) (t : Fin cfg0.N) : (iblk m c 1 t : Vec F S128x128 .f32) = wtarr m c := by
  obtain ⟨-, -, a0, a1, -⟩ := win03_facts t
  funext y
  show V m c main_v1 (((cfg0.win 1).blk t).view.emb y) = V m c main_v1 y
  refine congrArg (V m c main_v1) (funext fun a => Fin.ext ?_)
  match a with
  | ⟨0, _⟩ => show win0_1.index t (0 : Fin 2) * 128 + 1 * (y 0).val = (y 0).val; rw [a0]; omega
  | ⟨1, _⟩ => show win0_1.index t (1 : Fin 2) * 128 + 1 * (y 1).val = (y 1).val; rw [a1]; omega

theorem iblk2_eq (c : Dev nD) (t : Fin cfg0.N) : (iblk m c 2 t : Vec F S1x128 .f32) = barr m c := by
  obtain ⟨-, -, -, -, a0, a1, -⟩ := win03_facts t
  funext y
  show V m c main_v2 (((cfg0.win 2).blk t).view.emb y) = V m c main_v2 y
  refine congrArg (V m c main_v2) (funext fun a => Fin.ext ?_)
  match a with
  | ⟨0, _⟩ => show win0_2.index t (0 : Fin 2) * 1 + 1 * (y 0).val = (y 0).val; rw [a0]; omega
  | ⟨1, _⟩ => show win0_2.index t (1 : Fin 2) * 128 + 1 * (y 1).val = (y 1).val; rw [a1]; omega

theorem iblk3_eq (c : Dev nD) (t : Fin cfg0.N) : (iblk m c 3 t : Vec F S1x1 .f32) = parr m c := by
  obtain ⟨-, -, -, -, -, -, a0, a1⟩ := win03_facts t
  funext y
  show V m c main_v3 (((cfg0.win 3).blk t).view.emb y) = V m c main_v3 y
  refine congrArg (V m c main_v3) (funext fun a => Fin.ext ?_)
  match a with
  | ⟨0, _⟩ => show win0_3.index t (0 : Fin 2) * 1 + 1 * (y 0).val = (y 0).val; rw [a0]; omega
  | ⟨1, _⟩ => show win0_3.index t (1 : Fin 2) * 1 + 1 * (y 1).val = (y 1).val; rw [a1]; omega

/-! ## The adjacency block at a point, read at a row inside the array -/

/-- The index map and cut sizes of the adjacency window, decided once over the 17 points: point `t` sits at
    block row `t`, block column 0; its block keeps `min 600 (10000 - 600·t)` rows (600, and 400 at the last point)
    and all 10000 columns. -/
theorem win4_facts : ∀ t : Fin cfg0.N, win0_4.index t (0 : Fin 2) = t.val ∧ win0_4.index t (1 : Fin 2) = 0
    ∧ win0_4.xsize (grid0.coords t) (0 : Fin 2) = min 600 (10000 - t.val * 600)
    ∧ win0_4.xsize (grid0.coords t) (1 : Fin 2) = 10000 :=
  (by decide +kernel : ∀ t : Fin grid0.N, _)

theorem ablk8_apply (c : Dev nD) (t : Fin cfg0.N) (r : Fin 600) (k : Fin 10000) (hr : t.val * 600 + r.val < 10000) :
    ablk8 m c t (ix2 r k) = aarr m c (ix2 ⟨t.val * 600 + r.val, hr⟩ k) := by
  obtain ⟨e0, e1, x0, x1⟩ := win4_facts t
  -- (r, k) lies in the part of the block the fetch moves: name it as an index j of that part
  have hj : ∀ a : Fin 2, (ix2 r k a).val < win0_4.xsize (grid0.coords t) a := fun a => by
    match a with
    | ⟨0, _⟩ => show r.val < win0_4.xsize (grid0.coords t) (0 : Fin 2); rw [x0]; omega
    | ⟨1, _⟩ => show k.val < win0_4.xsize (grid0.coords t) (1 : Fin 2); rw [x1]; exact k.isLt
  have hx : ix2 r k = win0_4.xinj (grid0.coords t) (fun a => ⟨(ix2 r k a).val, hj a⟩) := funext fun a => Fin.ext rfl
  unfold ablk8
  rw [hx, win0_4.fill_xinj]
  -- the block read there is the array at block index × block size + 1 × the coordinate inside the block
  show aarr m c ((win0_4.blk t).view.emb (fun a => ⟨(ix2 r k a).val, hj a⟩)) = _
  refine congrArg (aarr m c) (funext fun a => Fin.ext ?_)
  match a with
  | ⟨0, _⟩ => show win0_4.index t (0 : Fin 2) * 600 + 1 * r.val = t.val * 600 + r.val; rw [e0]; omega
  | ⟨1, _⟩ => show win0_4.index t (1 : Fin 2) * 10000 + 1 * k.val = k.val; rw [e1]; omega

/-! ## From blocks to the array: the result window -/

/-- The index map and cut sizes of the result window, decided once over the 17 points: point `t` sits at
    block row `t`, block column 0; its block keeps `min 600 (10000 - 600·t)` rows and all 128 columns. -/
theorem win5_facts : ∀ t : Fin cfg0.N, win0_5.index t (0 : Fin 2) = t.val ∧ win0_5.index t (1 : Fin 2) = 0
    ∧ win0_5.xsize (grid0.coords t) (0 : Fin 2) = min 600 (10000 - t.val * 600)
    ∧ win0_5.xsize (grid0.coords t) (1 : Fin 2) = 128 :=
  (by decide +kernel : ∀ t : Fin grid0.N, _)

/-- What point `t` writes back — the rows of its computed block that lie inside the array — is block `t` of `G2`,
    when the computed block agrees with `G2` on those rows. -/
theorem flushed5_eq (c : Dev nD) (G2 : Vec F S10000x128 .f32)
    (hrow : ∀ (t : Fin cfg0.N) (r : Fin 600) (o : Fin 128) (hr : t.val * 600 + r.val < 10000),
      oblk m c t (ix2 r o) = G2 (ix2 ⟨t.val * 600 + r.val, hr⟩ o))
    (t : Fin cfg0.N) :
    (dats m 0 c).flushed 5 t = ((cfg0.win 5).blk t).view.read (Elt F) G2 := by
  show win0_5.cut (grid0.coords t) ((dats m 0 c).after 5 t) = _
  rw [after_5]
  obtain ⟨e0, e1, x0, x1⟩ := win5_facts t
  funext j
  -- j's coordinates: a row below the cut size (so below 600 and inside the array), a column below 128
  have j0 : (j 0).val < win0_5.xsize (grid0.coords t) (0 : Fin 2) := (j 0).isLt
  have j1 : (j 1).val < win0_5.xsize (grid0.coords t) (1 : Fin 2) := (j 1).isLt
  rw [x0] at j0
  rw [x1] at j1
  have hx : win0_5.xinj (grid0.coords t) j = ix2 (⟨(j 0).val, by omega⟩ : Fin 600) (⟨(j 1).val, j1⟩ : Fin 128) :=
    funext fun a => Fin.ext (by match a with | ⟨0, _⟩ => rfl | ⟨1, _⟩ => rfl)
  show oblk m c t (win0_5.xinj (grid0.coords t) j) = G2 (((cfg0.win 5).blk t).view.emb j)
  rw [hx, hrow t ⟨(j 0).val, by omega⟩ ⟨(j 1).val, j1⟩ (by show t.val * 600 + (j 0).val < 10000; omega)]
  -- the block's element sits in the array at block index × block size + 1 × the coordinate inside the block
  refine congrArg G2 (funext fun a => Fin.ext ?_)
  match a with
  | ⟨0, _⟩ => show t.val * 600 + (j 0).val = win0_5.index t (0 : Fin 2) * 600 + 1 * (j 0).val; rw [e0]; omega
  | ⟨1, _⟩ => show (j 1).val = win0_5.index t (1 : Fin 2) * 128 + 1 * (j 1).val; rw [e1]; omega

/-- An index of the result array is under point `t`'s block iff each coordinate is in the block's range on its
    axis, the range cut at the array's end. -/
theorem mem_blk5 (t : Fin cfg0.N) (i : S10000x128.Idx) :
    i ∈ ((cfg0.win 5).blk t).view.set ↔ ∀ a : Fin 2, win0_5.index t a * S600x128.size a ≤ (i a).val
      ∧ (i a).val < win0_5.index t a * S600x128.size a + win0_5.xsize (grid0.coords t) a := by
  show i ∈ ((View.whole main_v4).slice (win0_5.rect t)).set ↔ _
  rw [View.set_slice_whole, Rect.mem_set_unit]
  exact Iff.rfl

/-- Row ρ of the result is under the block of point ρ / 600: the blocks' rows 600·t … 600·t + 599, cut at 10000,
    cover the array. -/
theorem cover5 (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 17 := N_0
  let t : Fin cfg0.N := ⟨(i 0).val / 600, by rw [hN]; omega⟩
  have ht : t.val = (i 0).val / 600 := rfl
  obtain ⟨e0, e1, x0, x1⟩ := win5_facts t
  refine ⟨t, flush0_5 t, ?_⟩
  rw [mem_blk5]
  intro a
  match a with
  | ⟨0, _⟩ =>
    show win0_5.index t (0 : Fin 2) * 600 ≤ (i 0).val
      ∧ (i 0).val < win0_5.index t (0 : Fin 2) * 600 + win0_5.xsize (grid0.coords t) (0 : Fin 2)
    rw [e0, x0, ht]; omega
  | ⟨1, _⟩ =>
    show win0_5.index t (1 : Fin 2) * 128 ≤ (i 1).val
      ∧ (i 1).val < win0_5.index t (1 : Fin 2) * 128 + win0_5.xsize (grid0.coords t) (1 : Fin 2)
    rw [e1, x1]; omega

theorem final_v4 (c : Dev nD) (G2 : Vec F S10000x128 .f32)
    (hrow : ∀ (t : Fin cfg0.N) (r : Fin 600) (o : Fin 128) (hr : t.val * 600 + r.val < 10000),
      oblk m c t (ix2 r o) = G2 (ix2 ⟨t.val * 600 + r.val, hr⟩ o)) :
    (dats m 0 c).arrAt 5 cfg0.N = G2 :=
  (dats m 0 c).arrAt_eq_of_cover 5 G2 (fun t _ => flushed5_eq m c G2 hrow t) cover5

/-! ## The host operation after the call, read at an index -/

theorem tail_v5 (c : Dev nD) (i : S1x10000x128.Idx) :
    (Pipeline.afterTail₀ cfgs (dats m) 0 (V0 m) [hostOps1] c main_v5 : Vec F S1x10000x128 .f32) i
      = ((dats m 0 c).arrAt 5 cfg0.N : Vec F S10000x128 .f32) (ix2 (i 1) (i 2)) := by
  -- the broadcast's operand is the result array as the region leaves it
  have e : (Pipeline.afterTail₀ cfgs (dats m) 0 (V0 m) [hostOps1] c main_v5 : Vec F S1x10000x128 .f32)
      = broadcastInDim S1x10000x128 ![1, 2] bcast_S10000x128_S1x10000x128_1_2
          ((dats m 0 c).arrAt 5 cfg0.N : Vec F S10000x128 .f32) := by
    unfold Pipeline.afterTail₀
    show StableHlo.after hostOps1 _ (Proc.devRef .tc main_v5) = _
    after_results
    exact congrArg _ (Pipeline.withArrays_arr spec0 launch0.win.arr_inj c _ _ 5)
  rw [e]
  -- a broadcast along a new leading unit axis reads the operand at the two trailing coordinates
  exact broadcastInDim_apply _ bcast_S10000x128_S1x10000x128_1_2 _ i (ix2 (i 1) (i 2)) (fun a => match a with
    | ⟨0, _⟩ => by show (i 1).val = if (10000 : Nat) = 1 then 0 else (i 1).val; rw [if_neg (by decide)]
    | ⟨1, _⟩ => by show (i 2).val = if (128 : Nat) = 1 then 0 else (i 2).val; rw [if_neg (by decide)])

end Cert.KernelIdeal.Hand

end
-- ==== Proof.ObligI.lean ====
/-
  The body obligation of the idealized kernel's pipeline, at the ideal instance.

  At point t the body is handed: the four resident inputs' buffers at their whole arrays; the adjacency
  buffer just fetched — rows 600·t … of `a` on the rows inside the array, words nothing names on the 200
  rows past the array's end at the last point —; the result's buffer and (at the first point) the
  scratch at anything; after the first point the scratch at the projection. It hands back the inputs as
  found, the scratch at the projection, and the result's buffer at the payload of what it was handed.

  The two clipped windows' posts are stated only on the rows inside the array. For the adjacency buffer
  that is its block, which the body does not touch. For the result's buffer it is ROW-LOCALITY of the
  payload over the extended reals (`cut_pay2`): entry (r, o) of the block is the rectifier of
  Σ_k block[r, k] · proj[k, o], which reads row r of the adjacency buffer only — and a row inside the
  array holds the array's words whatever the rows past its end hold.
-/
import proofs.«141032_g8650064134273_cont_sun_m_1390_14_alg».proof.Proof.DataI
import proofs.«141032_g8650064134273_cont_sun_m_1390_14_alg».proof.Proof.BodyI
import proofs.«141032_g8650064134273_cont_sun_m_1390_14_alg».proof.Proof.PayloadI
import proofs.«141032_g8650064134273_cont_sun_m_1390_14_alg».proof.Proof.Layout
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The class's invariant spelled over the scratch: at some contents, and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What each buffer holds when the body runs -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
/-- The adjacency buffer is fetched at every point: its block on the rows inside the array, `d` elsewhere. -/
theorem before_4 (c : Dev nD) (t : Fin cfg0.N) (d) :
    (dats m 0 c).before 4 t d = win0_4.fill (grid0.coords t) d (ablk m c t) := by
  unfold Dat.before; rw [if_pos (fetch0_4 t)]; rfl
/-- The result's buffer comes back from a write-back (or is fresh) at every point: anything. -/
theorem before_5 (c : Dev nD) (t : Fin cfg0.N) (d) : (dats m 0 c).before 5 t d = d :=
  (dats m 0 c).before_out_reset 5 rfl t (by
    by_cases h : t.val = 0
    · exact .inl h
    · exact .inr ⟨h, flush0_5 _⟩) d

/-! ## Row-locality on the rows inside the array -/

/-- A row of the fetched adjacency buffer that lies inside the array holds the array's row, whatever the filler. -/
theorem fill4_apply (c : Dev nD) (t : Fin cfg0.N) (d : Vec Ideal S600x10000 .f32) (r : Fin 600) (k : Fin 10000)
    (hr : t.val * 600 + r.val < 10000) :
    win0_4.fill (grid0.coords t) d (ablk m c t) (ix2 r k) = aarr m c (ix2 ⟨t.val * 600 + r.val, hr⟩ k) := by
  obtain ⟨-, -, x0, x1⟩ := win4_facts t
  have hm : win0_4.moved (grid0.coords t) (ix2 r k) = true := (win0_4.moved_iff _ _).mpr fun a => by
    match a with
    | ⟨0, _⟩ => show r.val < win0_4.xsize (grid0.coords t) (0 : Fin 2); rw [x0]; have := r.isLt; omega
    | ⟨1, _⟩ => show k.val < win0_4.xsize (grid0.coords t) (1 : Fin 2); rw [x1]; exact k.isLt
  rw [← ablk8_apply m c t r k hr]
  unfold ablk8 Window.fill
  rw [dif_pos hm, dif_pos hm]

/-- On the rows inside the array the computed block does not depend on what the adjacency buffer holds past
    the array's end: entry (r, o) reads row r only. -/
theorem cut_pay2 (c : Dev nD) (t : Fin cfg0.N) (d4 : Vec Ideal S600x10000 .f32) (S : Vec Ideal S10000x128 .f32) (X3 : Vec Ideal S1x1 .f32) :
    win0_5.cut (grid0.coords t) (k0_pay2 (F := Ideal) (win0_4.fill (grid0.coords t) d4 (ablk m c t)) S X3)
      = win0_5.cut (grid0.coords t) (k0_pay2 (F := Ideal) (ablk8 m c t) S X3) := by
  obtain ⟨-, -, x0, x1⟩ := win5_facts t
  funext j
  have j0 : (j 0).val < win0_5.xsize (grid0.coords t) (0 : Fin 2) := (j 0).isLt
  have j1 : (j 1).val < win0_5.xsize (grid0.coords t) (1 : Fin 2) := (j 1).isLt
  rw [x0] at j0
  rw [x1] at j1
  have hx : win0_5.xinj (grid0.coords t) j = ix2 (⟨(j 0).val, by omega⟩ : Fin 600) (⟨(j 1).val, j1⟩ : Fin 128) :=
    funext fun a => Fin.ext (by match a with | ⟨0, _⟩ => rfl | ⟨1, _⟩ => rfl)
  show k0_pay2 (F := Ideal) _ S X3 (win0_5.xinj (grid0.coords t) j) = k0_pay2 (F := Ideal) _ S X3 (win0_5.xinj (grid0.coords t) j)
  rw [hx, pay2_apply, pay2_apply]
  refine congrArg _ (Finset.sum_congr rfl fun k _ => ?_)
  have hr : t.val * 600 + (j 0).val < 10000 := by omega
  rw [fill4_apply m c t d4 ⟨(j 0).val, by omega⟩ k hr, ablk8_apply m c t ⟨(j 0).val, by omega⟩ k hr]

/-! ## The obligation -/

set_option maxHeartbeats 1600000 in
theorem body_obligation (c : Dev nD) : BodyObligationLoose (dats m 0 c) (defs₀ (F := Ideal)) Variants.none () Set.univ := fun t => by
  rw [bigSep_W0, bigSep_W0]
  simp only
  rw [show (dats m 0 c).owesAt () t.succ = (dats m 0 c).owesAt () t.castSucc from rfl,
    show (dats m 0 c).Φ t.succ = PhiS m c (t.val + 1) from rfl, PhiS_succ,
    show (dats m 0 c).Φ t.castSucc = PhiS m c t.val from rfl,
    after_0, after_1, after_2, after_3, after_4, after_5]
  show _ ⊢ wp frame (wpE (defs₀ (F := Ideal)) Variants.none c none) Set.univ (bodyAt0 t) _
  have hx : xth m c = k0_pay1 (xarr m c) (wtarr m c) (barr m c) := rfl
  have h4 : win0_4.cut (grid0.coords t) (ablk8 m c t) = ablk m c t := win0_4.cut_fill _ _ _
  by_cases hz : t.val = 0
  · -- the first point: the scratch at anything; it ends at the projection
    rw [show PhiS m c t.val = Pipeline.ΦA spec0 c from by rw [hz]; rfl, PhiA_eq]
    iintro ⟨⟨⟨%ds, HS⟩, Hg⟩, Ho, ⟨%d0, H0⟩, ⟨%d1, H1⟩, ⟨%d2, H2⟩, ⟨%d3, H3⟩, ⟨%d4, H4⟩, ⟨%d5, H5⟩⟩
    rw [before_0 m c t d0, before_1 m c t d1, before_2 m c t d2, before_3 m c t d3, before_4 m c t d4, before_5 m c t d5,
      iblk0_eq, iblk1_eq, iblk2_eq, iblk3_eq]
    iapply (body_first (F := Ideal) c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      scM (Memref.isWhole_whole _) ((isFirst_iff t).mpr hz)
      (xarr m c) (wtarr m c) (barr m c) (parr m c) (win0_4.fill (grid0.coords t) d4 (ablk m c t)) Set.univ _)
    isplitl [H0]; · iexact H0
    isplitl [H1]; · iexact H1
    isplitl [H2]; · iexact H2
    isplitl [H3]; · iexact H3
    isplitl [H4]; · iexact H4
    isplitl [H5]; · iexists d5; iexact H5
    isplitl [HS]; · iexists ds; iexact HS
    iintro ⟨H0, H1, H2, H3, H4, H5, HS⟩
    isplitl [HS Hg]
    · isplitl [HS]
      · rw [hx]; iexact HS
      · iexact Hg
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (stage0_4 (cfg0.slots t 4)) fullShare
        (win0_4.fill (grid0.coords t) d4 (win0_4.cut (grid0.coords t) (ablk8 m c t)))
      rw [h4]; try iexact H4
    · iexists k0_pay2 (F := Ideal) (win0_4.fill (grid0.coords t) d4 (ablk m c t)) (k0_pay1 (xarr m c) (wtarr m c) (barr m c)) (parr m c)
      change _ ⊢ owns (c : Thread nD τ) (stage0_5 (cfg0.slots t 5)) fullShare
        (win0_5.fill (α := Elt Ideal .f32) (grid0.coords t) (k0_pay2 (F := Ideal) (win0_4.fill (grid0.coords t) d4 (ablk m c t)) (k0_pay1 (xarr m c) (wtarr m c) (barr m c)) (parr m c))
          (win0_5.cut (α := Elt Ideal .f32) (grid0.coords t) (k0_pay2 (F := Ideal) (ablk8 m c t) (k0_pay1 (xarr m c) (wtarr m c) (barr m c)) (parr m c))))
      rw [← cut_pay2 m c t d4, Window.fill_cut]; try iexact H5
  · -- a later point: the scratch at the projection, read and left
    rw [PhiS_pos m c _ hz]
    iintro ⟨⟨HS, Hg⟩, Ho, ⟨%d0, H0⟩, ⟨%d1, H1⟩, ⟨%d2, H2⟩, ⟨%d3, H3⟩, ⟨%d4, H4⟩, ⟨%d5, H5⟩⟩
    rw [before_0 m c t d0, before_1 m c t d1, before_2 m c t d2, before_3 m c t d3, before_4 m c t d4, before_5 m c t d5,
      iblk0_eq, iblk1_eq, iblk2_eq, iblk3_eq]
    iapply (body_later (F := Ideal) c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      scM (Memref.isWhole_whole _) (fun h => hz ((isFirst_iff t).mp h))
      (xarr m c) (wtarr m c) (barr m c) (parr m c) (win0_4.fill (grid0.coords t) d4 (ablk m c t)) (xth m c) Set.univ _)
    isplitl [H0]; · iexact H0
    isplitl [H1]; · iexact H1
    isplitl [H2]; · iexact H2
    isplitl [H3]; · iexact H3
    isplitl [H4]; · iexact H4
    isplitl [H5]; · iexists d5; iexact H5
    isplitl [HS]; · iexact HS
    iintro ⟨H0, H1, H2, H3, H4, H5, HS⟩
    isplitl [HS Hg]
    · isplitl [HS]
      · iexact HS
      · iexact Hg
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (stage0_4 (cfg0.slots t 4)) fullShare
        (win0_4.fill (grid0.coords t) d4 (win0_4.cut (grid0.coords t) (ablk8 m c t)))
      rw [h4]; try iexact H4
    · iexists k0_pay2 (F := Ideal) (win0_4.fill (grid0.coords t) d4 (ablk m c t)) (xth m c) (parr m c)
      change _ ⊢ owns (c : Thread nD τ) (stage0_5 (cfg0.slots t 5)) fullShare
        (win0_5.fill (α := Elt Ideal .f32) (grid0.coords t) (k0_pay2 (F := Ideal) (win0_4.fill (grid0.coords t) d4 (ablk m c t)) (xth m c) (parr m c))
          (win0_5.cut (α := Elt Ideal .f32) (grid0.coords t) (k0_pay2 (F := Ideal) (ablk8 m c t) (xth m c) (parr m c))))
      rw [← cut_pay2 m c t d4, Window.fill_cut]; try iexact H5

end Cert.KernelIdeal.Hand

end
-- ==== Proof.ValueI.lean ====
/-
  The idealized kernel's run, its frame, and the value of its result.

  `run_main`: every weakly fair execution of @main terminates with the result window's array at what the
  proof data computes and every bypassing buffer as the host line after the call leaves it. Read at
  the returned buffer: the host line broadcasts the [10000, 128] result along a new unit axis, the
  result array is block t's rows 600·t … laid one under the other (the last block cut at row 10000),
  and row r of block t is the rectifier of Σ_k a[600·t + r, k] · proj[k, o] with proj the scratch —
  which is the specification `Gcn.out` of the five argument arrays.
-/
import proofs.«141032_g8650064134273_cont_sun_m_1390_14_alg».proof.Proof.ObligI
import proofs.«141032_g8650064134273_cont_sun_m_1390_14_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The launch -/

/-- What the launch hands the region is the invariant before the first point. -/
theorem hin (c : Dev nD) : Pipeline.ΦA spec0 c ⊢ (dats m 0 c).Φ 0 := by
  rw [show (dats m 0 c).Φ 0 = PhiS m c 0 from rfl, PhiS_zero]
  try exact Idealize.SL.BI.Entails.refl _

/-- After the last point the invariant gives the class's back: the scratch's named contents are forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 17 := N_0; omega), PhiA_eq]
  iintro ⟨HS, Hg⟩
  isplitl [HS]
  · iexists _; iexact HS
  iexact Hg

set_option backward.isDefEq.respectTransparency.types false in
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-! ## The frame run's post read at the argument arrays and at the result -/

/-- The five argument arrays end as launched. -/
theorem args_of_post (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (W_main_arg0 m (dats m) c),
   ((h c).1 4).trans (((dats m 0 c).arrAt_in 4 rfl _).trans ((A_eq m c 4).trans (V_main_arg1 m c))),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c),
   ((h c).2 main_arg4 (Pipeline.mem_restRefs_of main_arg4 (by decide) (by decide))).trans (W_main_arg4 m (dats m) c)⟩

/-- Row r of the block computed at point t is row 600·t + r of the specification's matrix: the adjacency
    buffer's row is `a`'s, the scratch is the projection of x, W and b through the three host lines before
    the call, the slope is prelu_w's one word. -/
theorem oblk_row (c : Dev nD) (t : Fin cfg0.N) (r : Fin 600) (o : Fin 128) (hr : t.val * 600 + r.val < 10000) :
    oblk m c t (ix2 r o)
      = Gcn.out2 (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨t.val * 600 + r.val, hr⟩ o) := by
  unfold oblk
  rw [pay2_apply, parr_apply]
  show Gcn.prelu _ _ = Gcn.prelu _ (Gcn.agg _ _ _ _ ⟨t.val * 600 + r.val, hr⟩ o)
  unfold Gcn.agg
  refine congrArg _ (Finset.sum_congr rfl fun k _ => ?_)
  rw [ablk8_apply m c t r k hr, aarr_eq]
  refine congrArg _ ?_
  unfold xth Gcn.proj
  rw [pay1_apply, barr_apply]
  refine congrArg (· + _) (Finset.sum_congr rfl fun d _ => ?_)
  rw [xarr_apply, wtarr_apply]

/-- The returned buffer ends at the specification of the launch contents of the five argument arrays. -/
theorem value_of_post (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v5)
      = Gcn.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [(h c).2 main_v5 (Pipeline.mem_restRefs_of main_v5 (by decide) (by decide))]
  funext i
  rw [tail_v5 m c i, final_v4 m c _ (oblk_row m c)]
  rfl

end Cert.KernelIdeal.Hand

end
-- ==== Proof.RefSide.lean ====
/-
  The reference program read back: its run and its stages at an index (both generated), for the
  comparison with the kernel's result.
-/
import proofs.«141032_g8650064134273_cont_sun_m_1390_14_alg».proof.Proof.Gen.ReferenceIdeal.Run
import proofs.«141032_g8650064134273_cont_sun_m_1390_14_alg».proof.Proof.Gen.ReferenceIdeal.Read
-- ==== Proof.RefBridge.lean ====
/-
  The reference program's result is the specification's function of the five argument arrays.

  The program is read one operation at a time, outermost first. Its first contraction followed by the
  bias (repeated over the rows) and the reshape to [10000,128] is the projection; its second
  contraction, given the leading unit axis back, is the aggregate; the comparison with the all-zero
  word, the product with the slope (slope on the left) and the selection are the rectifier verbatim.
  The slope is the one entry of a one-element array reshaped to a scalar.
-/
import proofs.«141032_g8650064134273_cont_sun_m_1390_14_alg».proof.Proof.Gen.ReferenceIdeal.Read
import proofs.«141032_g8650064134273_cont_sun_m_1390_14_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reshape of the one-element array to a scalar reads its one entry: both shapes have a single
    row-major position. -/
theorem val_main_v9_apply (x4 : (⟨S1, .f32⟩ : BufTy).Contents (Elt Ideal)) (i : S_.Idx) :
    val_main_v9 (F := Ideal) x4 i = x4 (ix1 0) := by
  unfold val_main_v9
  refine shapeCast_apply x4 shapeCasts_S1_S_ i (ix1 0) ?_
  show (S1.rowMajor (ix1 0)).val = (S_.rowMajor i).val
  have h1 : (S1.rowMajor (ix1 0)).val < S1.numel := (S1.rowMajor (ix1 0)).isLt
  have h0 : (S_.rowMajor i).val < S_.numel := (S_.rowMajor i).isLt
  have e1 : S1.numel = 1 := by decide
  have e0 : S_.numel = 1 := by decide
  omega

/-- The first contraction plus the bias, reshaped to [10000,128], at (k, o): node k's projected features, channel o.
    The reshape drops the leading unit axis, so row-major position k·128 + o is read at (0, k, o). -/
theorem val_main_v4_ix2 (x0 : (⟨S1x10000x128, .f32⟩ : BufTy).Contents (Elt Ideal)) (x2 : (⟨S128x128, .f32⟩ : BufTy).Contents (Elt Ideal)) (x3 : (⟨S128, .f32⟩ : BufTy).Contents (Elt Ideal)) (k : Fin 10000) (o : Fin 128) :
    val_main_v4 (F := Ideal) x0 x2 x3 (ix2 k o) = Gcn.proj x0 x2 x3 k o := by
  have e4 : idx_main_v4 (ix2 k o) = ix3 (0 : Fin 1) k o := funext fun a => Fin.ext (by
    have hk : k.val < 10000 := k.isLt
    have ho : o.val < 128 := o.isLt
    match a with
    | ⟨0, _⟩ => rfl
    | ⟨1, _⟩ => show (k.val * 128 + o.val) / 128 % 10000 = k.val; omega
    | ⟨2, _⟩ => show (k.val * 128 + o.val) % 128 = o.val; omega)
  have eb : idx_main_v1 (idx_main_v2 (ix3 (0 : Fin 1) k o)) = ix1 o := funext fun a => Fin.ext (by
    match a with
    | ⟨0, _⟩ => rfl)
  rw [val_main_v4_apply, e4, val_main_v3_apply, val_main_v0_apply, val_main_v2_apply, val_main_v1_apply, eb]
  unfold Gcn.proj
  refine congrArg (· + x3 (ix1 o)) (Finset.sum_congr rfl fun d _ => ?_)
  have el : lidx_main_v0 (ix3 (0 : Fin 1) k o) d = ix3 (0 : Fin 1) k d := funext fun a => Fin.ext (by
    match a with
    | ⟨0, _⟩ => rfl
    | ⟨1, _⟩ => rfl
    | ⟨2, _⟩ => rfl)
  have er : ridx_main_v0 (ix3 (0 : Fin 1) k o) d = ix2 o d := funext fun a => Fin.ext (by
    match a with
    | ⟨0, _⟩ => rfl
    | ⟨1, _⟩ => rfl)
  rw [el, er]

/-- The second contraction with its leading unit axis at (z, r, o): node r's aggregate, channel o. -/
theorem val_main_v6_ix3 (x0 : (⟨S1x10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal))
    (z : Fin 1) (r : Fin 10000) (o : Fin 128) :
    val_main_v6 (F := Ideal) x0 x1 x2 x3 (ix3 z r o) = Gcn.agg x0 x1 x2 x3 r o := by
  rw [val_main_v6_apply, val_main_v5_apply]
  unfold Gcn.agg
  refine Finset.sum_congr rfl fun k _ => ?_
  have el : lidx_main_v5 (idx_main_v6 (ix3 z r o)) k = ix2 r k := funext fun a => Fin.ext (by
    match a with
    | ⟨0, _⟩ => rfl
    | ⟨1, _⟩ => rfl)
  have er : ridx_main_v5 (idx_main_v6 (ix3 z r o)) k = ix2 k o := funext fun a => Fin.ext (by
    match a with
    | ⟨0, _⟩ => rfl
    | ⟨1, _⟩ => rfl)
  rw [el, er, val_main_v4_ix2]

/-- The reference's result is the specification's: the rectifier, with slope the parameter's one entry, of the aggregate. -/
theorem ref_eq (x0 : (⟨S1x10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S1, .f32⟩ : BufTy).Contents (Elt Ideal)) :
    val_main_v12 (F := Ideal) x0 x1 x2 x3 x4 = Gcn.out x0 x1 x2 x3 x4 := by
  funext i
  obtain ⟨z, r, o, rfl⟩ : ∃ (z : Fin 1) (r : Fin 10000) (o : Fin 128), i = ix3 z r o := ⟨i 0, i 1, i 2, eq_ix3 i⟩
  rw [val_main_v12_apply, val_main_v8_apply, val_main_v11_apply, val_main_v7_apply, val_main_cst_apply,
    val_main_v10_apply, val_main_v9_apply, val_main_v6_ix3]
  rfl

end Cert.ReferenceIdeal.RefValue

end
-- ==== Proof.lean ====
/-
  A dense graph-convolution layer with a parametric rectifier,

      out = prelu( a · (x[0] · Wᵀ + b) ),

  as ONE pipelined kernel over 17 blocks of 600 rows of the adjacency matrix `a` (the last block overhangs the
  10000 rows by 200), the projection x[0]·Wᵀ + b computed once at the first block into a scratch that every
  later block reads, against the plain array program. Both are the same function of the five argument arrays
  over the extended reals, with the sums taken in the same order: no algebraic law is needed and the inputs'
  finiteness is never opened.

  * The word-level kernel's frame: relational proof data that name nothing — at the last block the rows past
    the array's end hold words nothing names, and at the word level a matrix product is uninterpreted in its
    whole operand, so what the body leaves in the result's buffer is not a function of the arguments; the
    frame does not ask what it is.
  * The idealized kernel's frame and value: exact proof data. Over the extended reals entry (r, o) of a block
    reads row r of the adjacency buffer only, so on the rows inside the array the block is determined; the
    rows past the end are cut off by the write-back. The result array is the blocks laid one under the
    other, and the host line after the call adds the leading unit axis.
  * The reference: its generated run, read one operation at a time, is the same specification.
-/
import proofs.«141032_g8650064134273_cont_sun_m_1390_14_alg».proof.Defs
import proofs.«141032_g8650064134273_cont_sun_m_1390_14_alg».proof.Proof.Gen.Kernel
import proofs.«141032_g8650064134273_cont_sun_m_1390_14_alg».proof.Proof.Gen.KernelIdeal
import proofs.«141032_g8650064134273_cont_sun_m_1390_14_alg».proof.Proof.Gen.ReferenceIdeal
import proofs.«141032_g8650064134273_cont_sun_m_1390_14_alg».proof.Proof.Gen.Pre_finite_inputs
import proofs.«141032_g8650064134273_cont_sun_m_1390_14_alg».proof.Proof.FrameK
import proofs.«141032_g8650064134273_cont_sun_m_1390_14_alg».proof.Proof.ValueI
import proofs.«141032_g8650064134273_cont_sun_m_1390_14_alg».proof.Proof.RefSide
import proofs.«141032_g8650064134273_cont_sun_m_1390_14_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel terminates, faults nowhere, and leaves its arguments as launched. -/
theorem frame_k [Cert.Pre_finite_inputs.Facts] : Cert.frame_Kernel := Cert.Kernel.Hand.frame

/-- So does the idealized kernel. -/
theorem frame_ki [Cert.Pre_finite_inputs.Facts] : Cert.frame_KernelIdeal := fun m ρ _ =>
  Cert.KernelIdeal.Gen.frame_of m ρ (Cert.KernelIdeal.Hand.dats m) (Cert.KernelIdeal.Hand.A_eq m) (Cert.KernelIdeal.Hand.run_main m ρ)

/-- And the reference: its run with the result dropped. -/
theorem frame_ri [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the five arguments both programs end with the returned buffer at the
    specification of those arguments. -/
theorem algebraic [Cert.Pre_finite_inputs.Facts] : Cert.algebraic_KernelIdeal_ReferenceIdeal := by
  intro m ρ m' ρ' _ hagree
  refine ⟨fun c => Gcn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨Cert.KernelIdeal.Hand.value_of_post m r h c, Cert.KernelIdeal.Hand.args_of_post m r h c⟩)
      (Cert.KernelIdeal.Hand.run_main m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v12_eq, Cert.ReferenceIdeal.RefValue.ref_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
